-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S2048 .f32) (main_arg8 : FVec F S2048x512 .f32) (main_arg9 : FVec F S512 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x512 .f32 := Host.absf main_arg8
  let main_cst_14 : FVec F S_ .f32 := constant S_ .f32 0x7F800000#32
  let main_v40 : FVec F S2048x512 .f32 := broadcastInDim S2048x512 ![] bcast_S_S2048x512 main_cst_14
  let main_v41 : IVec S2048x512 1 := cmpf .olt main_v39 main_v40
  let main_c_15 : IVec S_ 1 := constantI S_ 1 1#1
  let main_v42 : IVec S_ 1 := (fun x v => Host.reduce IntOp.andi x v reducesTo_S2048x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S2048x512 .f32) (main_arg5 : FVec F S512 .f32) (main_arg6 : FVec F S512x2048 .f32) (main_arg7 : FVec F S2048 .f32) (main_arg8 : FVec F S2048x512 .f32) (main_arg9 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x2048 .f32 := Host.absf main_arg6
  let main_cst_10 : FVec F S_ .f32 := constant S_ .f32 0x7F800000#32
  let main_v30 : FVec F S512x2048 .f32 := broadcastInDim S512x2048 ![] bcast_S_S512x2048 main_cst_10
  let main_v31 : IVec S512x2048 1 := cmpf .olt main_v29 main_v30
  let main_c_11 : IVec S_ 1 := constantI S_ 1 1#1
  let main_v32 : IVec S_ 1 := (fun x v => Host.reduce IntOp.andi x v reducesTo_S512x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x512 .f32) (main_arg1 : FVec F S8192x512 .f32) (main_arg2 : FVec F S512x2048 .f32) (main_arg3 : FVec F S2048 .f32) (main_arg4 : FVec F S2048x512 .f32) (main_arg5 : FVec F S512 .f32) (main_arg6 : FVec F S512x2048 .f32) (main_arg7 : FVec F S2048 .f32) (main_arg8 : FVec F S2048x512 .f32) (main_arg9 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_v13 main_v16
-- ==== Kernel.lean ====
abbrev S8192x512 : Shape := ⟨2, ![8192, 512]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S1x2048 : Shape := ⟨2, ![1, 2048]⟩
abbrev S1x512 : Shape := ⟨2, ![1, 512]⟩
abbrev S512x512 : Shape := ⟨2, ![512, 512]⟩
abbrev S_ : Shape := ⟨0, ![]⟩
abbrev S8192 : Shape := ⟨1, ![8192]⟩

abbrev nBuf : Space → Nat
  | .hbm => 57
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x2048, .f32⟩
  | .hbm, ⟨3, _⟩ => ⟨S2048, .f32⟩
  | .hbm, ⟨4, _⟩ => ⟨S2048x512, .f32⟩
  | .hbm, ⟨5, _⟩ => ⟨S512, .f32⟩
  | .hbm, ⟨6, _⟩ => ⟨S512x2048, .f32⟩
  | .hbm, ⟨7, _⟩ => ⟨S2048, .f32⟩
  | .hbm, ⟨8, _⟩ => ⟨S2048x512, .f32⟩
  | .hbm, ⟨9, _⟩ => ⟨S512, .f32⟩
  | .hbm, ⟨10, _⟩ => ⟨S8192x512, .bf16⟩
  | .hbm, ⟨11, _⟩ => ⟨S512x2048, .bf16⟩
  | .hbm, ⟨12, _⟩ => ⟨S2048x512, .bf16⟩
  | .hbm, ⟨13, _⟩ => ⟨S512x2048, .bf16⟩
  | .hbm, ⟨14, _⟩ => ⟨S2048x512, .bf16⟩
  | .hbm, ⟨15, _⟩ => ⟨S1x2048, .f32⟩
  | .hbm, ⟨16, _⟩ => ⟨S1x512, .f32⟩
  | .hbm, ⟨17, _⟩ => ⟨S1x2048, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S512, .f32⟩
  | .hbm, ⟨23, _⟩ => ⟨S8192x512, .f32⟩
  | .hbm, ⟨24, _⟩ => ⟨S_, .f32⟩
  | .hbm, ⟨25, _⟩ => ⟨S512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S1x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S1x2048, .f32⟩
  | .local _ .vmem, ⟨4, _⟩ => ⟨S2048x512, .bf16⟩
  | .local _ .vmem, ⟨5, _⟩ => ⟨S1x512, .f32⟩
  | .local _ .vmem, ⟨6, _⟩ => ⟨S512x2048, .bf16⟩
  | .local _ .vmem, ⟨7, _⟩ => ⟨S1x2048, .f32⟩
  | .local _ .vmem, ⟨8, _⟩ => ⟨S2048x512, .bf16⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S2048_S1x2048 : S2048.ShapeCasts S1x2048
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reducesTo_S8192x512_S512_d0 : S8192x512.ReducesTo [0] S512
  h_S_ : 0 < S_.numel
  reducesTo_S8192x512_S8192_d1 : S8192x512.ReducesTo [1] S8192
  reducesTo_S8192_S_d0 : S8192.ReducesTo [0] S_
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S_d0_1 : S8192x512.ReducesTo [0, 1] S_
  dot_S512x512_S512x2048_S512x2048_1_0_0_1_n_n_wf : DotDims.WF S512x512 S512x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S2048x512.size a
  hwx0_7 : ∀ i : grid0.Coords, EltTy.bits .bf16 = 32 ∨ (Rect.block (s := S2048x512) S2048x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S8192x512.size a
  hwx0_9 : ∀ i : grid0.Coords, EltTy.bits .f32 = 32 ∨ (Rect.block (s := S8192x512) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S8192x512.size a
  hwx0_10 : ∀ i : grid0.Coords, EltTy.bits .f32 = 32 ∨ (Rect.block (s := S8192x512) S512x512.size (cc0_transform_10 i) (hinb0_10 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2048x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_0) S512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_1) S512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S8192x2048 : Shape := ⟨2, ![8192, 2048]⟩
abbrev S1x2048 : Shape := ⟨2, ![1, 2048]⟩
abbrev S_ : Shape := ⟨0, ![]⟩
abbrev S1x512 : Shape := ⟨2, ![1, 512]⟩
abbrev S8192 : Shape := ⟨1, ![8192]⟩

abbrev nBuf : Space → Nat
  | .hbm => 74
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x2048, .f32⟩
  | .hbm, ⟨3, _⟩ => ⟨S2048, .f32⟩
  | .hbm, ⟨4, _⟩ => ⟨S2048x512, .f32⟩
  | .hbm, ⟨5, _⟩ => ⟨S512, .f32⟩
  | .hbm, ⟨6, _⟩ => ⟨S512x2048, .f32⟩
  | .hbm, ⟨7, _⟩ => ⟨S2048, .f32⟩
  | .hbm, ⟨8, _⟩ => ⟨S2048x512, .f32⟩
  | .hbm, ⟨9, _⟩ => ⟨S512, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x512, .f32⟩
  | .hbm, ⟨29, _⟩ => ⟨S1x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S512, .f32⟩
  | .hbm, ⟨50, _⟩ => ⟨S8192x512, .f32⟩
  | .hbm, ⟨51, _⟩ => ⟨S_, .f32⟩
  | .hbm, ⟨52, _⟩ => ⟨S512, .f32⟩
  | .hbm, ⟨53, _⟩ => ⟨S8192x512, .f32⟩
  | .hbm, ⟨54, _⟩ => ⟨S_, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S8192x512, .f32⟩
  | .hbm, ⟨59, _⟩ => ⟨S8192x512, .f32⟩
  | .hbm, ⟨60, _⟩ => ⟨S1x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S1x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_0 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  reducesTo_S8192x512_S8192_d1 : S8192x512.ReducesTo [1] S8192
  h_S_ : 0 < S_.numel
  reducesTo_S8192_S_d0 : S8192.ReducesTo [0] S_
  reducesTo_S8192x512_S512_d0 : S8192x512.ReducesTo [0] S512
  reducesTo_S8192x512_S_d0_1 : S8192x512.ReducesTo [0, 1] S_
  dot_S8192x512_S512x2048_S8192x2048_1_0_0_1_n_n_wf : DotDims.WF S8192x512 S512x2048 S8192x2048 [1] [0] [0] [1] [] []
  dot_S8192x2048_S2048x512_S8192x512_1_0_0_1_n_n_wf : DotDims.WF S8192x2048 S2048x512 S8192x512 [1] [0] [0] [1] [] []

variable [Facts₀]

def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf
def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf

class Facts : Prop extends Facts₀ where

variable [Facts]
-- ==== Proof.Spec.lean ====
/-
  The mathematics both programs compute, written once over the extended reals, entry by entry.

  A two-layer perceptron head sends row `r` of the samples `x` (8192 rows of 512 features) to
  `head r j = (∑ h, max ((∑ k, x r k · W1 k h) + b1 h) 0 · W2 h j) + b2 j`: an affine map into 2048 hidden units,
  rectified, then an affine map into 512 outputs. The mean head is `head` at the first family of weights; the
  weight array is `½ · exp (−tanh (head r j))` at the second family. Sums are finite sums over `Fin`, in the
  commutative monoid of the extended reals, so neither the order of summation nor any tiling of the rows
  is visible in these definitions.
-/
import Idealize.ShloMosaic.PureOps.Ideal
import Idealize.ShloMosaic.Lib.ValueIdx

noncomputable section

open scoped BigOperators

namespace Cert.Mlp

open Idealize.ShloMosaic Idealize.ShloMosaic.ValueIdx

/-- Samples, and each head's output: 8192 rows of 512 entries. -/
abbrev SRows : Shape := ⟨2, ![8192, 512]⟩
/-- First-layer weights: 512 features into 2048 hidden units. -/
abbrev SW1 : Shape := ⟨2, ![512, 2048]⟩
/-- First-layer bias. -/
abbrev SB1 : Shape := ⟨1, ![2048]⟩
/-- Second-layer weights: 2048 hidden units into 512 outputs. -/
abbrev SW2 : Shape := ⟨2, ![2048, 512]⟩
/-- Second-layer bias. -/
abbrev SB2 : Shape := ⟨1, ![512]⟩

/-- Hidden unit `h` of row `r`: the affine image of the row under the first layer, rectified at the
    value of the zero word. -/
def hidden (x : SRows.Idx → EReal) (W1 : SW1.Idx → EReal) (b1 : SB1.Idx → EReal) (r : Fin 8192) (h : Fin 2048) : EReal :=
  max ((∑ k : Fin 512, x (ix2 r k) * W1 (ix2 k h)) + b1 (ix1 h)) (Ideal.ofBits .f32 0x00000000#32)

/-- Output `j` of row `r`: the affine image of the row's hidden units under the second layer. -/
def head (x : SRows.Idx → EReal) (W1 : SW1.Idx → EReal) (b1 : SB1.Idx → EReal) (W2 : SW2.Idx → EReal)
    (b2 : SB2.Idx → EReal) (r : Fin 8192) (j : Fin 512) : EReal :=
  (∑ h : Fin 2048, hidden x W1 b1 r h * W2 (ix2 h j)) + b2 (ix1 j)

/-- A head as an array: entry `(r, j)` is `head r j`. -/
def headArr (x : SRows.Idx → EReal) (W1 : SW1.Idx → EReal) (b1 : SB1.Idx → EReal) (W2 : SW2.Idx → EReal)
    (b2 : SB2.Idx → EReal) : SRows.Idx → EReal :=
  fun i => head x W1 b1 W2 b2 (i 0) (i 1)

/-- The weight array: entry `(r, j)` is one half of the exponential of minus the hyperbolic tangent of the
    head there. -/
def weightArr (x : SRows.Idx → EReal) (W1 : SW1.Idx → EReal) (b1 : SB1.Idx → EReal) (W2 : SW2.Idx → EReal)
    (b2 : SB2.Idx → EReal) : SRows.Idx → EReal :=
  fun i => Ideal.ofBits .f32 0x3F000000#32 * Ideal.exp (-(Ideal.tanh (head x W1 b1 W2 b2 (i 0) (i 1))))

theorem headArr_apply (x : SRows.Idx → EReal) (W1 : SW1.Idx → EReal) (b1 : SB1.Idx → EReal) (W2 : SW2.Idx → EReal)
    (b2 : SB2.Idx → EReal) (r : Fin 8192) (j : Fin 512) :
    headArr x W1 b1 W2 b2 (ix2 r j) = head x W1 b1 W2 b2 r j := rfl

theorem weightArr_apply (x : SRows.Idx → EReal) (W1 : SW1.Idx → EReal) (b1 : SB1.Idx → EReal) (W2 : SW2.Idx → EReal)
    (b2 : SB2.Idx → EReal) (r : Fin 8192) (j : Fin 512) :
    weightArr x W1 b1 W2 b2 (ix2 r j)
      = Ideal.ofBits .f32 0x3F000000#32 * Ideal.exp (-(Ideal.tanh (head x W1 b1 W2 b2 r j))) := rfl

end Cert.Mlp

end
-- ==== Proof.RefSide.lean ====
/-
  The reference's two heads, entry by entry.

  The reference computes each head on whole arrays: a matrix product of the samples with the first-layer weights, the
  bias added along the rows, the maximum with zero, a second matrix product and bias. Read at entry `(r, j)`, each
  matrix product is the finite sum of products over its contracted coordinate and each broadcast reads the bias at the
  column, so the array is `Cert.Mlp.headArr`; the weight array applies the hyperbolic tangent, the negation, the
  exponential and the factor one half entrywise, so it is `Cert.Mlp.weightArr`.
-/
import proofs.«131378_j9225589752112_1_alg».proof.Proof.Gen.ReferenceIdeal.Run
import proofs.«131378_j9225589752112_1_alg».proof.Proof.Gen.ReferenceIdeal.Read
import proofs.«131378_j9225589752112_1_alg».proof.Proof.Spec

noncomputable section

open scoped BigOperators

namespace Cert.Mlp.Ref

open Idealize.ShloMosaic Idealize.ShloMosaic.ValueIdx
open Cert.ReferenceIdeal Cert.ReferenceIdeal.Read

/-- The first family's rectified hidden layer at entry `(r, h)`: the product of the samples with the first-layer
    weights is the sum over the 512 features, the two broadcasts read the bias at the column `h`, and the
    broadcast constant is the zero word. -/
theorem hidden_fst (x0 : (⟨S8192x512, .f32⟩ : BufTy).Contents (Elt Ideal)) (x2 : (⟨S512x2048, .f32⟩ : BufTy).Contents (Elt Ideal))
    (x3 : (⟨S2048, .f32⟩ : BufTy).Contents (Elt Ideal)) (r : Fin 8192) (h : Fin 2048) :
    val_main_v4 (F := Ideal) x0 x2 x3 (ix2 r h) = Cert.Mlp.hidden x0 x2 x3 r h := by
  have el : ∀ k : Fin 512, lidx_main_v0 (ix2 r h) k = ix2 r k := fun k =>
    funext fun a => Fin.ext (by match a with | ⟨0, _⟩ => rfl | ⟨1, _⟩ => rfl)
  have er : ∀ k : Fin 512, ridx_main_v0 (ix2 r h) k = ix2 k h := fun k =>
    funext fun a => Fin.ext (by match a with | ⟨0, _⟩ => rfl | ⟨1, _⟩ => rfl)
  have eb : idx_main_v1 (idx_main_v2 (ix2 r h)) = ix1 h :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [el, er, eb, Ideal.maximumf_def, Ideal.addf_def, Ideal.ofBits_def]
  rfl

/-- The first family's head at entry `(r, j)`: the second product is the sum over the 2048 hidden units, each read
    through `hidden_fst`, and the two broadcasts read the second bias at the column `j`. -/
theorem head_fst (x0 : (⟨S8192x512, .f32⟩ : BufTy).Contents (Elt Ideal)) (x2 : (⟨S512x2048, .f32⟩ : BufTy).Contents (Elt Ideal))
    (x3 : (⟨S2048, .f32⟩ : BufTy).Contents (Elt Ideal)) (x4 : (⟨S2048x512, .f32⟩ : BufTy).Contents (Elt Ideal))
    (x5 : (⟨S512, .f32⟩ : BufTy).Contents (Elt Ideal)) (r : Fin 8192) (j : Fin 512) :
    val_main_v8 (F := Ideal) x0 x2 x3 x4 x5 (ix2 r j) = Cert.Mlp.head x0 x2 x3 x4 x5 r j := by
  have el : ∀ k : Fin 2048, lidx_main_v5 (ix2 r j) k = ix2 r k := fun k =>
    funext fun a => Fin.ext (by match a with | ⟨0, _⟩ => rfl | ⟨1, _⟩ => rfl)
  have er : ∀ k : Fin 2048, ridx_main_v5 (ix2 r j) k = ix2 k j := fun k =>
    funext fun a => Fin.ext (by match a with | ⟨0, _⟩ => rfl | ⟨1, _⟩ => rfl)
  have eb : idx_main_v6 (idx_main_v7 (ix2 r j)) = ix1 j :=
    funext fun a => Fin.ext (by match a with | ⟨0, _⟩ => rfl)
  rw [val_main_v8_apply, val_main_v5_apply, val_main_v7_apply, val_main_v6_apply]
  simp only [el, er, eb, hidden_fst, Ideal.addf_def]
  rfl

/-- The second family's rectified hidden layer at entry `(r, h)`. -/
theorem hidden_snd (x0 : (⟨S8192x512, .f32⟩ : BufTy).Contents (Elt Ideal)) (x6 : (⟨S512x2048, .f32⟩ : BufTy).Contents (Elt Ideal))
    (x7 : (⟨S2048, .f32⟩ : BufTy).Contents (Elt Ideal)) (r : Fin 8192) (h : Fin 2048) :
    val_main_v13 (F := Ideal) x0 x6 x7 (ix2 r h) = Cert.Mlp.hidden x0 x6 x7 r h := by
  have el : ∀ k : Fin 512, lidx_main_v9 (ix2 r h) k = ix2 r k := fun k =>
    funext fun a => Fin.ext (by match a with | ⟨0, _⟩ => rfl | ⟨1, _⟩ => rfl)
  have er : ∀ k : Fin 512, ridx_main_v9 (ix2 r h) k = ix2 k h := fun k =>
    funext fun a => Fin.ext (by match a with | ⟨0, _⟩ => rfl | ⟨1, _⟩ => rfl)
  have eb : idx_main_v10 (idx_main_v11 (ix2 r h)) = ix1 h :=
    funext fun a => Fin.ext (by match a with | ⟨0, _⟩ => rfl)
  rw [val_main_v13_apply, val_main_v12_apply, val_main_v9_apply, val_main_v11_apply, val_main_v10_apply,
    val_main_call1_v0_apply, val_main_call1_cst_apply]
  simp only [el, er, eb, Ideal.maximumf_def, Ideal.addf_def, Ideal.ofBits_def]
  rfl

/-- The second family's head at entry `(r, j)`. -/
theorem head_snd (x0 : (⟨S8192x512, .f32⟩ : BufTy).Contents (Elt Ideal)) (x6 : (⟨S512x2048, .f32⟩ : BufTy).Contents (Elt Ideal))
    (x7 : (⟨S2048, .f32⟩ : BufTy).Contents (Elt Ideal)) (x8 : (⟨S2048x512, .f32⟩ : BufTy).Contents (Elt Ideal))
    (x9 : (⟨S512, .f32⟩ : BufTy).Contents (Elt Ideal)) (r : Fin 8192) (j : Fin 512) :
    val_main_v17 (F := Ideal) x0 x6 x7 x8 x9 (ix2 r j) = Cert.Mlp.head x0 x6 x7 x8 x9 r j := by
  have el : ∀ k : Fin 2048, lidx_main_v14 (ix2 r j) k = ix2 r k := fun k =>
    funext fun a => Fin.ext (by match a with | ⟨0, _⟩ => rfl | ⟨1, _⟩ => rfl)
  have er : ∀ k : Fin 2048, ridx_main_v14 (ix2 r j) k = ix2 k j := fun k =>
    funext fun a => Fin.ext (by match a with | ⟨0, _⟩ => rfl | ⟨1, _⟩ => rfl)
  have eb : idx_main_v15 (idx_main_v16 (ix2 r j)) = ix1 j :=
    funext fun a => Fin.ext (by match a with | ⟨0, _⟩ => rfl)
  rw [val_main_v17_apply, val_main_v14_apply, val_main_v16_apply, val_main_v15_apply]
  simp only [el, er, eb, hidden_snd, Ideal.addf_def]
  rfl

/-- The reference's mean head is the specification's head array at the first family of weights. -/
theorem mean_head_eq (x0 : (⟨S8192x512, .f32⟩ : BufTy).Contents (Elt Ideal)) (x2 : (⟨S512x2048, .f32⟩ : BufTy).Contents (Elt Ideal))
    (x3 : (⟨S2048, .f32⟩ : BufTy).Contents (Elt Ideal)) (x4 : (⟨S2048x512, .f32⟩ : BufTy).Contents (Elt Ideal))
    (x5 : (⟨S512, .f32⟩ : BufTy).Contents (Elt Ideal)) :
    val_main_v8 (F := Ideal) x0 x2 x3 x4 x5 = Cert.Mlp.headArr x0 x2 x3 x4 x5 := by
  funext i
  obtain ⟨r, j, rfl⟩ : ∃ (r : Fin 8192) (j : Fin 512), i = ix2 r j := ⟨i 0, i 1, eq_ix2 i⟩
  rw [head_fst, Cert.Mlp.headArr_apply]

/-- The reference's weight array is the specification's at the second family of weights. -/
theorem weight_eq (x0 : (⟨S8192x512, .f32⟩ : BufTy).Contents (Elt Ideal)) (x6 : (⟨S512x2048, .f32⟩ : BufTy).Contents (Elt Ideal))
    (x7 : (⟨S2048, .f32⟩ : BufTy).Contents (Elt Ideal)) (x8 : (⟨S2048x512, .f32⟩ : BufTy).Contents (Elt Ideal))
    (x9 : (⟨S512, .f32⟩ : BufTy).Contents (Elt Ideal)) :
    val_main_v22 (F := Ideal) x0 x6 x7 x8 x9 = Cert.Mlp.weightArr x0 x6 x7 x8 x9 := by
  funext i
  obtain ⟨r, j, rfl⟩ : ∃ (r : Fin 8192) (j : Fin 512), i = ix2 r j := ⟨i 0, i 1, eq_ix2 i⟩
  rw [val_main_v22_apply, val_main_v21_apply, val_main_cst_apply, val_main_v20_apply, val_main_v19_apply,
    val_main_v18_apply, head_snd, Cert.Mlp.weightArr_apply]
  simp only [Ideal.mulf_def, Ideal.hostUnary_exp_def, Ideal.hostNegf_def, Ideal.negf_def, Ideal.hostUnary_tanh_def,
    Ideal.ofBits_def]

end Cert.Mlp.Ref

end
-- ==== Proof.LossTail.lean ====
/-
  The loss as one function of the mean head `mu`, the weight array `w` and the targets `y`.

  With n = 8192 rows, the positive part is minus the mean over rows of the row sums of `(mu − y)² · w`; the
  negative part is minus the sum over all entries of `w · (n · mu² − 2 · mu · Sy + Sy2)` divided by n² (the word
  0x4C800000), where `Sy` and `Sy2` are the column sums of `y` and of `y²` broadcast over the rows; the result
  is their difference. Both programs end with exactly these operations applied to their own `mu` and `w`, so the
  comparison of the two results reduces to the comparison of those two arrays: the operations are never opened.
-/
import proofs.«131378_j9225589752112_1_alg».proof.Proof.Gen.ReferenceIdeal.Run
import proofs.«131378_j9225589752112_1_alg».proof.Proof.Gen.ReferenceIdeal.Read

noncomputable section

namespace Cert.Mlp.Loss

open Idealize.ShloMosaic Idealize.ShloMosaic.TcCoe Idealize.SL.Sem
open Cert.ReferenceIdeal Cert.ReferenceIdeal.Gen Cert.ReferenceIdeal.Read

variable {F : FTy → Type} [FloatOps F]

/-- The scalar loss from the mean head, the weight array and the targets. -/
def loss (mu w y : FVec F S8192x512 .f32) : FVec F S_ .f32 :=
  subf (Host.negf (Host.divf (Host.reduceAdd (Host.reduceAdd (mulf (mulf (subf mu y) (subf mu y)) w) (constant S_ .f32 0x00000000#32) reducesTo_S8192x512_S8192_d1 h_S_) (constant S_ .f32 0x00000000#32) reducesTo_S8192_S_d0 h_S_) (constant S_ .f32 0x46000000#32))) (Host.divf (Host.negf (Host.reduceAdd (mulf w (addf (subf (mulf (broadcastInDim S8192x512 ![] bcast_S_S8192x512 (constant S_ .f32 0x46000000#32)) (mulf mu mu)) (mulf (mulf (broadcastInDim S8192x512 ![] bcast_S_S8192x512 (constant S_ .f32 0x40000000#32)) mu) (broadcastInDim S8192x512 ![0, 1] bcast_S1x512_S8192x512_0_1 (broadcastInDim S1x512 ![1] bcast_S512_S1x512_1 (Host.reduceAdd y (constant S_ .f32 0x00000000#32) reducesTo_S8192x512_S512_d0 h_S_))))) (broadcastInDim S8192x512 ![0, 1] bcast_S1x512_S8192x512_0_1 (broadcastInDim S1x512 ![1] bcast_S512_S1x512_1 (Host.reduceAdd (mulf y y) (constant S_ .f32 0x00000000#32) reducesTo_S8192x512_S512_d0 h_S_))))) (constant S_ .f32 0x00000000#32) reducesTo_S8192x512_S_d0_1 h_S_)) (constant S_ .f32 0x4C800000#32))

set_option maxRecDepth 8192 in
/-- The reference's result is the loss of its own mean head and weight array and the targets it was given. -/
theorem reference_result (m : (ℓ : Loc nD τ sig) → Buf (Elt F) ℓ) (c : Dev nD) :
    Cert.ReferenceIdeal.Value.res_main_v49 m c
      = loss (val_main_v8 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
          (val_main_v22 (F := F) (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)))
          (m ((c.tc : Thread nD τ).loc main_arg1)) := by
  unfold Cert.ReferenceIdeal.Value.res_main_v49 loss
  rfl

end Cert.Mlp.Loss

end
-- ==== Proof.KernelPayload.lean ====
/-
  The kernel body's arithmetic at one entry of a row block.

  At a grid point the body holds a block of 512 sample rows and the whole of each weight matrix and bias. What it
  stores for the mean head at entry `(p, j)` of the block is the second affine layer applied to the rectified first
  affine layer of row `p`; for the weight array it is one half of the exponential of minus the hyperbolic tangent of
  the same expression at the second family of weights. Each matrix product, read at an entry, is the finite sum of
  products over the contracted coordinate (into a zero accumulator, so no further term), a change of float format
  is the identity on the extended reals, and a bias row of shape [1, n] broadcast over the rows reads its entry `(0, j)`.
-/
import proofs.«131378_j9225589752112_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Mlp.Kern

open Idealize.ShloMosaic Idealize.ShloMosaic.ValueIdx
open Cert.KernelIdeal Cert.KernelIdeal.Gen

/-! ## The two matrix products at an entry

For each of the two products the operand coordinates at an output entry and a value of the contracted coordinate:
the left operand is read at (row of the output, contracted coordinate), the right one at (contracted coordinate,
column of the output). -/

theorem lhs_first_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_first_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_first_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_first_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

theorem lhs_second_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_second_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_second_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_second_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The first layer's product into the zero accumulator, at entry `(p, c)`: the sum over the 512 input features of row `p` of the left operand times column `c` of the right one. -/
theorem first_matmul_apply (a : FVec Ideal S512x512 .bf16) (b : FVec Ideal S512x2048 .bf16) (p : Fin 512) (c : Fin 2048) :
    (matmul dot_S512x512_S512x2048_S512x2048_1_0_0_1_n_n none a b (constant (F := Ideal) S512x2048 .f32 0x00000000#32) (ix2 p c) : EReal)
      = ∑ k : Fin 512, (a (ix2 p k) : EReal) * (b (ix2 k c) : EReal) := by
  refine (Ideal.matmul_constant_zero_apply dot_S512x512_S512x2048_S512x2048_1_0_0_1_n_n none a b (ix2 p c)).trans ?_
  rw [← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 p c) ((ValueIdx.contrEquiv1 dot_S512x512_S512x2048_S512x2048_1_0_0_1_n_n 512 rfl rfl).symm k) = ix2 p k := funext fun a => Fin.ext (by
    match a with
    | ⟨0, _⟩ => exact lhs_first_0 _ _
    | ⟨1, _⟩ => exact (lhs_first_1 _ _).trans hk)
  have er : dot_S512x512_S512x2048_S512x2048_1_0_0_1_n_n.rhsIdx (ix2 p c) ((ValueIdx.contrEquiv1 dot_S512x512_S512x2048_S512x2048_1_0_0_1_n_n 512 rfl rfl).symm k) = ix2 k c := funext fun a => Fin.ext (by
    match a with
    | ⟨0, _⟩ => exact (rhs_first_0 _ _).trans hk
    | ⟨1, _⟩ => exact rhs_first_1 _ _)
  rw [el, er]

/-- The second layer's product into the zero accumulator, at entry `(p, c)`: the sum over the 2048 hidden units of row `p` of the left operand times column `c` of the right one. -/
theorem second_matmul_apply (a : FVec Ideal S512x2048 .bf16) (b : FVec Ideal S2048x512 .bf16) (p : Fin 512) (c : Fin 512) :
    (matmul dot_S512x2048_S2048x512_S512x512_1_0_0_1_n_n none a b (constant (F := Ideal) S512x512 .f32 0x00000000#32) (ix2 p c) : EReal)
      = ∑ k : Fin 2048, (a (ix2 p k) : EReal) * (b (ix2 k c) : EReal) := by
  refine (Ideal.matmul_constant_zero_apply dot_S512x2048_S2048x512_S512x512_1_0_0_1_n_n none a b (ix2 p c)).trans ?_
  rw [← Equiv.sum_comp (ValueIdx.contrEquiv1 dot_S512x2048_S2048x512_S512x512_1_0_0_1_n_n 2048 rfl rfl).symm]
  refine Finset.sum_congr rfl fun k _ => ?_
  have hk := ValueIdx.contrEquiv1_symm_val dot_S512x2048_S2048x512_S512x512_1_0_0_1_n_n 2048 rfl rfl k
  have el : dot_S512x2048_S2048x512_S512x512_1_0_0_1_n_n.lhsIdx (ix2 p c) ((ValueIdx.contrEquiv1 dot_S512x2048_S2048x512_S512x512_1_0_0_1_n_n 2048 rfl rfl).symm k) = ix2 p k := funext fun a => Fin.ext (by
    match a with
    | ⟨0, _⟩ => exact lhs_second_0 _ _
    | ⟨1, _⟩ => exact (lhs_second_1 _ _).trans hk)
  have er : dot_S512x2048_S2048x512_S512x512_1_0_0_1_n_n.rhsIdx (ix2 p c) ((ValueIdx.contrEquiv1 dot_S512x2048_S2048x512_S512x512_1_0_0_1_n_n 2048 rfl rfl).symm k) = ix2 k c := funext fun a => Fin.ext (by
    match a with
    | ⟨0, _⟩ => exact (rhs_second_0 _ _).trans hk
    | ⟨1, _⟩ => exact rhs_second_1 _ _)
  rw [el, er]

/-! ## One head before its second bias

Both heads share this shape: the rectified first affine layer of a row block, narrowed to the 16-bit format (the
identity on the extended reals), multiplied into the second weight matrix. -/

/-- The rectified first layer at entry `(p, h)`: the maximum of zero and row `p` of the samples against column `h`
    of the first weights, plus the bias row's entry `h`. -/
theorem rectified_apply (x0 : FVec Ideal S512x512 .bf16) (w : FVec Ideal S512x2048 .bf16) (b : FVec Ideal S1x2048 .f32)
    (p : Fin 512) (h : Fin 2048) :
    ((truncf .bf16 (maximumf (addf (matmul dot_S512x512_S512x2048_S512x2048_1_0_0_1_n_n none x0 w (constant (F := Ideal) S512x2048 .f32 0x00000000#32))
          (broadcastTo S512x2048 b broadcasts_S1x2048_S512x2048))
        (broadcast S512x2048 (Scalar.ofBits (F := Ideal) .f32 0x00000000#32))) bitsLt_bf16_f32 : FVec Ideal S512x2048 .bf16) (ix2 p h) : EReal)
      = max ((∑ k : Fin 512, (x0 (ix2 p k) : EReal) * (w (ix2 k h) : EReal)) + (b (ix2 (0 : Fin 1) h) : EReal))
          (Ideal.ofBits .f32 0x00000000#32) := by
  show max ((matmul dot_S512x512_S512x2048_S512x2048_1_0_0_1_n_n none x0 w (constant (F := Ideal) S512x2048 .f32 0x00000000#32) (ix2 p h) : EReal)
      + (broadcastTo S512x2048 b broadcasts_S1x2048_S512x2048 (ix2 p h) : EReal)) (Ideal.ofBits .f32 0x00000000#32) = _
  rw [first_matmul_apply, broadcastTo_1b_ab_apply]

/-- A head without its second bias, at entry `(p, j)`: the sum over the hidden units of the rectified first layer
    times the second weights. -/
theorem head_matmul_apply (x0 : FVec Ideal S512x512 .bf16) (w : FVec Ideal S512x2048 .bf16) (b : FVec Ideal S1x2048 .f32)
    (w' : FVec Ideal S2048x512 .bf16) (p : Fin 512) (j : Fin 512) :
    (matmul dot_S512x2048_S2048x512_S512x512_1_0_0_1_n_n none
        (truncf .bf16 (maximumf (addf (matmul dot_S512x512_S512x2048_S512x2048_1_0_0_1_n_n none x0 w (constant (F := Ideal) S512x2048 .f32 0x00000000#32))
          (broadcastTo S512x2048 b broadcasts_S1x2048_S512x2048))
        (broadcast S512x2048 (Scalar.ofBits (F := Ideal) .f32 0x00000000#32))) bitsLt_bf16_f32 : FVec Ideal S512x2048 .bf16)
        w' (constant (F := Ideal) S512x512 .f32 0x00000000#32) (ix2 p j) : EReal)
      = ∑ h : Fin 2048, max ((∑ k : Fin 512, (x0 (ix2 p k) : EReal) * (w (ix2 k h) : EReal)) + (b (ix2 (0 : Fin 1) h) : EReal))
            (Ideal.ofBits .f32 0x00000000#32) * (w' (ix2 h j) : EReal) := by
  refine (second_matmul_apply _ _ p j).trans ?_
  exact Finset.sum_congr rfl fun h _ => congrArg (· * (w' (ix2 h j) : EReal)) (rectified_apply x0 w b p h)

/-- The mean head's stored value at entry `(p, j)` of a row block: the second layer's affine map of the rectified
    first layer of block row `p`. -/
theorem mean_payload_apply (x0 : Vec Ideal S512x512 .bf16) (x1 : Vec Ideal S512x2048 .bf16) (x2 : Vec Ideal S1x2048 .f32)
    (x3 : Vec Ideal S2048x512 .bf16) (x4 : Vec Ideal S1x512 .f32) (p : Fin 512) (j : Fin 512) :
    (k0_pay3 (F := Ideal) x0 x1 x2 x3 x4 (ix2 p j) : EReal)
      = (∑ h : Fin 2048, max ((∑ k : Fin 512, (x0 (ix2 p k) : EReal) * (x1 (ix2 k h) : EReal)) + (x2 (ix2 (0 : Fin 1) h) : EReal))
            (Ideal.ofBits .f32 0x00000000#32) * (x3 (ix2 h j) : EReal))
          + (x4 (ix2 (0 : Fin 1) j) : EReal) := by
  unfold k0_pay3 k0_pay2
  simp only [shapeCast_self]
  show (_ : EReal) + (broadcastTo S512x512 x4 broadcasts_S1x512_S512x512 (ix2 p j) : EReal) = _
  rw [broadcastTo_1b_ab_apply]
  exact congrArg (· + (x4 (ix2 (0 : Fin 1) j) : EReal)) (head_matmul_apply x0 x1 x2 x3 p j)

/-- The second head before its bias, at entry `(p, j)` of a row block. -/
theorem logvar_matmul_apply (x0 : Vec Ideal S512x512 .bf16) (x5 : Vec Ideal S512x2048 .bf16) (x6 : Vec Ideal S1x2048 .f32)
    (x7 : Vec Ideal S2048x512 .bf16) (p : Fin 512) (j : Fin 512) :
    (k0_pay4 (F := Ideal) x0 x5 x6 x7 (ix2 p j) : EReal)
      = ∑ h : Fin 2048, max ((∑ k : Fin 512, (x0 (ix2 p k) : EReal) * (x5 (ix2 k h) : EReal)) + (x6 (ix2 (0 : Fin 1) h) : EReal))
            (Ideal.ofBits .f32 0x00000000#32) * (x7 (ix2 h j) : EReal) := by
  unfold k0_pay4 k0_pay2
  simp only [shapeCast_self]
  exact head_matmul_apply x0 x5 x6 x7 p j

/-- The second head's bias row broadcast over the block's rows. -/
theorem logvar_bias_apply (x8 : Vec Ideal S1x512 .f32) (p : Fin 512) (j : Fin 512) :
    (k0_pay5 (F := Ideal) x8 (ix2 p j) : EReal) = (x8 (ix2 (0 : Fin 1) j) : EReal) := by
  unfold k0_pay5
  simp only [shapeCast_self]
  exact broadcastTo_1b_ab_apply x8 broadcasts_S1x512_S512x512 p j

/-- The weight array's stored value: one half of the exponential of minus the hyperbolic tangent of the sum of
    its two operands, entry by entry (zero minus `t` is `−t` on the extended reals). -/
theorem weight_payload_apply (u v : FVec Ideal S512x512 .f32) (i : S512x512.Idx) :
    (k0_pay1 (F := Ideal) u v i : EReal)
      = Ideal.ofBits .f32 0x3F000000#32 * Ideal.exp (-(Ideal.tanh ((u i : EReal) + (v i : EReal)))) := by
  unfold k0_pay1
  show Ideal.ofBits .f32 0x3F000000#32 * Ideal.exp (Ideal.ofBits .f32 0x00000000#32 - Ideal.tanh ((u i : EReal) + (v i : EReal))) = _
  rw [Ideal.ofBits_zero_f32, zero_sub]

end Cert.Mlp.Kern

end
-- ==== Proof.KernelArrays.lean ====
/-
  What the two output arrays hold after the kernel's region, as whole arrays.

  The grid has sixteen points; point `t` holds rows `512·t … 512·t + 511` of the samples and the whole of every
  weight matrix and bias, and writes back rows `512·t … 512·t + 511` of each output. Before the region the samples and
  the weight matrices only change float format (the identity on the extended reals) and each bias of length n is
  reshaped to one row [1, n], so a block entry is an entry of an argument array: sample block entry `(p, k)` at point
  `t` is sample `(512·t + p, k)`, a weight block is the weight matrix, a bias row's entry `(0, j)` is the bias at
  `j`. With the body's arithmetic read at an entry, what point `t` writes back is block `t` of the specification's
  array; the sixteen blocks tile the 8192 rows (row `i` lies in block `i / 512`), so each output array is the
  specification's array.
-/
import proofs.«131378_j9225589752112_1_alg».proof.Proof.Gen.KernelIdeal.Frame
import proofs.«131378_j9225589752112_1_alg».proof.Proof.Spec
import proofs.«131378_j9225589752112_1_alg».proof.Proof.KernelPayload
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Mlp.Arrays

open Cert.KernelIdeal Cert.KernelIdeal.Gen

variable (m : (ℓ : Loc nD τ sig) → Buf (Elt Ideal) ℓ)

/-! ## The argument arrays, by their literal types -/

abbrev samples (c : Dev nD) : S8192x512.Idx → EReal := m ((c : Thread nD τ).loc main_arg0)
abbrev muW1 (c : Dev nD) : S512x2048.Idx → EReal := m ((c : Thread nD τ).loc main_arg2)
abbrev muB1 (c : Dev nD) : S2048.Idx → EReal := m ((c : Thread nD τ).loc main_arg3)
abbrev muW2 (c : Dev nD) : S2048x512.Idx → EReal := m ((c : Thread nD τ).loc main_arg4)
abbrev muB2 (c : Dev nD) : S512.Idx → EReal := m ((c : Thread nD τ).loc main_arg5)
abbrev lvW1 (c : Dev nD) : S512x2048.Idx → EReal := m ((c : Thread nD τ).loc main_arg6)
abbrev lvB1 (c : Dev nD) : S2048.Idx → EReal := m ((c : Thread nD τ).loc main_arg7)
abbrev lvW2 (c : Dev nD) : S2048x512.Idx → EReal := m ((c : Thread nD τ).loc main_arg8)
abbrev lvB2 (c : Dev nD) : S512.Idx → EReal := m ((c : Thread nD τ).loc main_arg9)

/-! ## The arrays the region finds: the host operations before it -/

/-- The samples in the narrower format are the samples. -/
theorem found_samples (c : Dev nD) : (V m c main_v0 : S8192x512.Idx → EReal) = samples m c := by
  show StableHlo.after hostOps0 (fun b => m (c, b)) (Proc.devRef .tc main_v0) = _
  after_results
  rfl

/-- The first-layer weights of the first family, likewise. -/
theorem found_muW1 (c : Dev nD) : (V m c main_v1 : S512x2048.Idx → EReal) = muW1 m c := by
  show StableHlo.after hostOps0 (fun b => m (c, b)) (Proc.devRef .tc main_v1) = _
  after_results
  rfl
theorem found_muW2 (c : Dev nD) : (V m c main_v2 : S2048x512.Idx → EReal) = muW2 m c := by
  show StableHlo.after hostOps0 (fun b => m (c, b)) (Proc.devRef .tc main_v2) = _
  after_results
  rfl
theorem found_lvW1 (c : Dev nD) : (V m c main_v3 : S512x2048.Idx → EReal) = lvW1 m c := by
  show StableHlo.after hostOps0 (fun b => m (c, b)) (Proc.devRef .tc main_v3) = _
  after_results
  rfl
theorem found_lvW2 (c : Dev nD) : (V m c main_v4 : S2048x512.Idx → EReal) = lvW2 m c := by
  show StableHlo.after hostOps0 (fun b => m (c, b)) (Proc.devRef .tc main_v4) = _
  after_results
  rfl

/-- A vector of length 2048 reshaped to one row, read at `(0, h)`, is the vector at `h`: the two entries have the same
    row-major position. -/
theorem row_of_2048 (b : S2048.Idx → EReal) (y : S1x2048.Idx) :
    shapeCast S1x2048 b shapeCasts_S2048_S1x2048 y = b (ix1 (y 1)) := by
  refine shapeCast_apply _ _ y (ix1 (y 1)) ?_
  rw [Shape.rowMajor_val_one, Shape.rowMajor_val_two]
  have h0 : (y 0).val < 1 := (y 0).isLt
  show (y 1).val = (y 0).val * 2048 + (y 1).val
  omega
/-- The same for length 512. -/
theorem row_of_512 (b : S512.Idx → EReal) (y : S1x512.Idx) :
    shapeCast S1x512 b shapeCasts_S512_S1x512 y = b (ix1 (y 1)) := by
  refine shapeCast_apply _ _ y (ix1 (y 1)) ?_
  rw [Shape.rowMajor_val_one, Shape.rowMajor_val_two]
  have h0 : (y 0).val < 1 := (y 0).isLt
  show (y 1).val = (y 0).val * 512 + (y 1).val
  omega

/-- Each bias reaches the region as one row. -/
theorem found_muB1 (c : Dev nD) (y : S1x2048.Idx) : (V m c main_v5 : S1x2048.Idx → EReal) y = muB1 m c (ix1 (y 1)) := by
  have e : (V m c main_v5 : S1x2048.Idx → EReal) = shapeCast S1x2048 (muB1 m c) shapeCasts_S2048_S1x2048 := by
    show StableHlo.after hostOps0 (fun b => m (c, b)) (Proc.devRef .tc main_v5) = _
    after_results
    rfl
  rw [e]; exact row_of_2048 _ y
theorem found_muB2 (c : Dev nD) (y : S1x512.Idx) : (V m c main_v6 : S1x512.Idx → EReal) y = muB2 m c (ix1 (y 1)) := by
  have e : (V m c main_v6 : S1x512.Idx → EReal) = shapeCast S1x512 (muB2 m c) shapeCasts_S512_S1x512 := by
    show StableHlo.after hostOps0 (fun b => m (c, b)) (Proc.devRef .tc main_v6) = _
    after_results
    rfl
  rw [e]; exact row_of_512 _ y
theorem found_lvB1 (c : Dev nD) (y : S1x2048.Idx) : (V m c main_v7 : S1x2048.Idx → EReal) y = lvB1 m c (ix1 (y 1)) := by
  have e : (V m c main_v7 : S1x2048.Idx → EReal) = shapeCast S1x2048 (lvB1 m c) shapeCasts_S2048_S1x2048 := by
    show StableHlo.after hostOps0 (fun b => m (c, b)) (Proc.devRef .tc main_v7) = _
    after_results
    rfl
  rw [e]; exact row_of_2048 _ y
theorem found_lvB2 (c : Dev nD) (y : S1x512.Idx) : (V m c main_v8 : S1x512.Idx → EReal) y = lvB2 m c (ix1 (y 1)) := by
  have e : (V m c main_v8 : S1x512.Idx → EReal) = shapeCast S1x512 (lvB2 m c) shapeCasts_S512_S1x512 := by
    show StableHlo.after hostOps0 (fun b => m (c, b)) (Proc.devRef .tc main_v8) = _
    after_results
    rfl
  rw [e]; exact row_of_512 _ y

/-! ## The blocks at a grid point -/

/-- The index maps over the grid: the sample window and the two output windows move one block of rows per point;
    every other window stays at block (0, 0). -/
theorem block_indices : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Sample block entry `y` at point `t` is the sample at row `512·t + y₀`, column `y₁`. -/
theorem samples_block (c : Dev nD) (t : Fin cfg0.N) (y : S512x512.Idx) (i : S8192x512.Idx)
    (h0 : (i 0).val = 512 * t.val + (y 0).val) (h1 : (i 1).val = (y 1).val) :
    (iblk m c 0 t : S512x512.Idx → EReal) y = samples m c i := by
  obtain ⟨⟨e0, e1⟩, -⟩ := block_indices t
  unfold iblk
  rw [View.read_apply]
  show (V m c main_v0 : S8192x512.Idx → EReal) _ = _
  rw [found_samples]
  refine congrArg (samples m c) (funext fun a => Fin.ext ?_)
  match a with
  | ⟨0, _⟩ => show win0_0.index t (0 : Fin 2) * 512 + 1 * (y 0).val = (i 0).val; rw [e0, h0]; omega
  | ⟨1, _⟩ => show win0_0.index t (1 : Fin 2) * 512 + 1 * (y 1).val = (i 1).val; rw [e1, h1]; omega

/-- A weight block is the whole weight matrix: its window stays at block (0, 0). -/
theorem muW1_block (c : Dev nD) (t : Fin cfg0.N) (y : S512x2048.Idx) :
    (iblk m c 1 t : S512x2048.Idx → EReal) y = muW1 m c y := by
  obtain ⟨e0, e1⟩ := (block_indices t).2.1
  unfold iblk
  rw [View.read_apply]
  show (V m c main_v1 : S512x2048.Idx → EReal) _ = _
  rw [found_muW1]
  refine congrArg (muW1 m c) (funext fun a => Fin.ext ?_)
  match a with
  | ⟨0, _⟩ => show win0_1.index t (0 : Fin 2) * 512 + 1 * (y 0).val = (y 0).val; rw [e0]; omega
  | ⟨1, _⟩ => show win0_1.index t (1 : Fin 2) * 2048 + 1 * (y 1).val = (y 1).val; rw [e1]; omega

/-- A bias row's entry \`(0, j)\` is the bias at \`j\`. -/
theorem muB1_block (c : Dev nD) (t : Fin cfg0.N) (j : Fin 2048) :
    (iblk m c 2 t : S1x2048.Idx → EReal) (ix2 (0 : Fin 1) j) = muB1 m c (ix1 j) := by
  obtain ⟨e0, e1⟩ := (block_indices t).2.2.1
  unfold iblk
  rw [View.read_apply]
  show (V m c main_v5 : S1x2048.Idx → EReal) _ = _
  rw [found_muB1]
  refine congrArg (muB1 m c) (funext fun a => Fin.ext ?_)
  match a with
  | ⟨0, _⟩ => show win0_2.index t (1 : Fin 2) * 2048 + 1 * j.val = j.val; rw [e1]; omega

/-- The second-layer weights of the first family. -/
theorem muW2_block (c : Dev nD) (t : Fin cfg0.N) (y : S2048x512.Idx) :
    (iblk m c 3 t : S2048x512.Idx → EReal) y = muW2 m c y := by
  obtain ⟨e0, e1⟩ := (block_indices t).2.2.2.1
  unfold iblk
  rw [View.read_apply]
  show (V m c main_v2 : S2048x512.Idx → EReal) _ = _
  rw [found_muW2]
  refine congrArg (muW2 m c) (funext fun a => Fin.ext ?_)
  match a with
  | ⟨0, _⟩ => show win0_3.index t (0 : Fin 2) * 2048 + 1 * (y 0).val = (y 0).val; rw [e0]; omega
  | ⟨1, _⟩ => show win0_3.index t (1 : Fin 2) * 512 + 1 * (y 1).val = (y 1).val; rw [e1]; omega

/-- The second-layer bias of the first family. -/
theorem muB2_block (c : Dev nD) (t : Fin cfg0.N) (j : Fin 512) :
    (iblk m c 4 t : S1x512.Idx → EReal) (ix2 (0 : Fin 1) j) = muB2 m c (ix1 j) := by
  obtain ⟨e0, e1⟩ := (block_indices t).2.2.2.2.1
  unfold iblk
  rw [View.read_apply]
  show (V m c main_v6 : S1x512.Idx → EReal) _ = _
  rw [found_muB2]
  refine congrArg (muB2 m c) (funext fun a => Fin.ext ?_)
  match a with
  | ⟨0, _⟩ => show win0_4.index t (1 : Fin 2) * 512 + 1 * j.val = j.val; rw [e1]; omega

/-- The first-layer weights of the second family. -/
theorem lvW1_block (c : Dev nD) (t : Fin cfg0.N) (y : S512x2048.Idx) :
    (iblk m c 5 t : S512x2048.Idx → EReal) y = lvW1 m c y := by
  obtain ⟨e0, e1⟩ := (block_indices t).2.2.2.2.2.1
  unfold iblk
  rw [View.read_apply]
  show (V m c main_v3 : S512x2048.Idx → EReal) _ = _
  rw [found_lvW1]
  refine congrArg (lvW1 m c) (funext fun a => Fin.ext ?_)
  match a with
  | ⟨0, _⟩ => show win0_5.index t (0 : Fin 2) * 512 + 1 * (y 0).val = (y 0).val; rw [e0]; omega
  | ⟨1, _⟩ => show win0_5.index t (1 : Fin 2) * 2048 + 1 * (y 1).val = (y 1).val; rw [e1]; omega

/-- The first-layer bias of the second family. -/
theorem lvB1_block (c : Dev nD) (t : Fin cfg0.N) (j : Fin 2048) :
    (iblk m c 6 t : S1x2048.Idx → EReal) (ix2 (0 : Fin 1) j) = lvB1 m c (ix1 j) := by
  obtain ⟨e0, e1⟩ := (block_indices t).2.2.2.2.2.2.1
  unfold iblk
  rw [View.read_apply]
  show (V m c main_v7 : S1x2048.Idx → EReal) _ = _
  rw [found_lvB1]
  refine congrArg (lvB1 m c) (funext fun a => Fin.ext ?_)
  match a with
  | ⟨0, _⟩ => show win0_6.index t (1 : Fin 2) * 2048 + 1 * j.val = j.val; rw [e1]; omega

/-- The second-layer weights of the second family. -/
theorem lvW2_block (c : Dev nD) (t : Fin cfg0.N) (y : S2048x512.Idx) :
    (iblk m c 7 t : S2048x512.Idx → EReal) y = lvW2 m c y := by
  obtain ⟨e0, e1⟩ := (block_indices t).2.2.2.2.2.2.2.1
  unfold iblk
  rw [View.read_apply]
  show (V m c main_v4 : S2048x512.Idx → EReal) _ = _
  rw [found_lvW2]
  refine congrArg (lvW2 m c) (funext fun a => Fin.ext ?_)
  match a with
  | ⟨0, _⟩ => show win0_7.index t (0 : Fin 2) * 2048 + 1 * (y 0).val = (y 0).val; rw [e0]; omega
  | ⟨1, _⟩ => show win0_7.index t (1 : Fin 2) * 512 + 1 * (y 1).val = (y 1).val; rw [e1]; omega

/-- The second-layer bias of the second family. -/
theorem lvB2_block (c : Dev nD) (t : Fin cfg0.N) (j : Fin 512) :
    (iblk m c 8 t : S1x512.Idx → EReal) (ix2 (0 : Fin 1) j) = lvB2 m c (ix1 j) := by
  obtain ⟨e0, e1⟩ := (block_indices t).2.2.2.2.2.2.2.2.1
  unfold iblk
  rw [View.read_apply]
  show (V m c main_v8 : S1x512.Idx → EReal) _ = _
  rw [found_lvB2]
  refine congrArg (lvB2 m c) (funext fun a => Fin.ext ?_)
  match a with
  | ⟨0, _⟩ => show win0_8.index t (1 : Fin 2) * 512 + 1 * j.val = j.val; rw [e1]; omega

/-! ## What a point writes back, and the whole arrays -/

theorem hz : (![0, 0] : Fin 2 → Nat) = fun _ => 0 := funext fun a => by fin_cases a <;> rfl

/-- The grid has sixteen points. -/
theorem point_lt (t : Fin cfg0.N) : t.val < 16 := by
  have h : cfg0.N = 16 := N_0
  have := t.isLt
  omega

/-- The head computed from a row block and whole weights is the specification's head at the block's row: when the
    block's row `p` is row `r` of the samples, each weight block is its matrix and each bias row its bias, the two
    nested sums agree term by term. -/
theorem head_of_block (xb : S512x512.Idx → EReal) (w1b : S512x2048.Idx → EReal) (b1b : S1x2048.Idx → EReal)
    (w2b : S2048x512.Idx → EReal) (b2b : S1x512.Idx → EReal)
    (X : S8192x512.Idx → EReal) (W1 : S512x2048.Idx → EReal) (B1 : S2048.Idx → EReal) (W2 : S2048x512.Idx → EReal) (B2 : S512.Idx → EReal)
    (p q : Fin 512) (r : Fin 8192)
    (hx : ∀ k : Fin 512, xb (ix2 p k) = X (ix2 r k)) (hw1 : ∀ y, w1b y = W1 y) (hb1 : ∀ h : Fin 2048, b1b (ix2 (0 : Fin 1) h) = B1 (ix1 h))
    (hw2 : ∀ y, w2b y = W2 y) (hb2 : ∀ j : Fin 512, b2b (ix2 (0 : Fin 1) j) = B2 (ix1 j)) :
    (∑ h : Fin 2048, max ((∑ k : Fin 512, xb (ix2 p k) * w1b (ix2 k h)) + b1b (ix2 (0 : Fin 1) h))
          (Ideal.ofBits .f32 0x00000000#32) * w2b (ix2 h q)) + b2b (ix2 (0 : Fin 1) q)
      = Cert.Mlp.head X W1 B1 W2 B2 r q := by
  unfold Cert.Mlp.head Cert.Mlp.hidden
  simp only [hx, hw1, hb1, hw2, hb2]

/-- Entry `(p, q)` of an output block at point `t` is entry `(512·t + p, q)` of the output array. -/
theorem mean_emb (t : Fin cfg0.N) (p q : Fin 512) (r : Fin 8192) (hr : r.val = 512 * t.val + p.val) :
    ((cfg0.win 9).blk t).view.emb (ix2 p q) = (ix2 r q : S8192x512.Idx) := by
  obtain ⟨e0, e1⟩ := (block_indices t).2.2.2.2.2.2.2.2.2.1
  refine funext fun a => Fin.ext ?_
  match a with
  | ⟨0, _⟩ => show win0_9.index t (0 : Fin 2) * 512 + 1 * p.val = r.val; rw [e0, hr]; omega
  | ⟨1, _⟩ => show win0_9.index t (1 : Fin 2) * 512 + 1 * q.val = q.val; rw [e1]; omega
theorem weight_emb (t : Fin cfg0.N) (p q : Fin 512) (r : Fin 8192) (hr : r.val = 512 * t.val + p.val) :
    ((cfg0.win 10).blk t).view.emb (ix2 p q) = (ix2 r q : S8192x512.Idx) := by
  obtain ⟨e0, e1⟩ := (block_indices t).2.2.2.2.2.2.2.2.2.2
  refine funext fun a => Fin.ext ?_
  match a with
  | ⟨0, _⟩ => show win0_10.index t (0 : Fin 2) * 512 + 1 * p.val = r.val; rw [e0, hr]; omega
  | ⟨1, _⟩ => show win0_10.index t (1 : Fin 2) * 512 + 1 * q.val = q.val; rw [e1]; omega

/-- The mean head as the kernel's first output array should hold it. -/
abbrev meanArr (c : Dev nD) : S8192x512.Idx → EReal :=
  Cert.Mlp.headArr (samples m c) (muW1 m c) (muB1 m c) (muW2 m c) (muB2 m c)
/-- The weight array as the kernel's second output array should hold it. -/
abbrev wgtArr (c : Dev nD) : S8192x512.Idx → EReal :=
  Cert.Mlp.weightArr (samples m c) (lvW1 m c) (lvB1 m c) (lvW2 m c) (lvB2 m c)

/-- What point `t` writes back into the first output is block `t` of the mean head. -/
theorem mean_flushed (c : Dev nD) (t : Fin cfg0.N) :
    (dats m 0 c).flushed 9 t = ((cfg0.win 9).blk t).view.read (Elt Ideal) (meanArr m c) := by
  show (cfg0.win 9).cut (grid0.coords t) ((dats m 0 c).after 9 t) = _
  rw [after0_9]
  unfold out0_9
  rw [View.canon_unit_zero hz]
  simp only [View.ld_unit_zero (S := S512x512) hz, View.ld_unit_zero (S := S512x2048) hz, View.ld_unit_zero (S := S1x2048) hz,
    View.ld_unit_zero (S := S2048x512) hz, View.ld_unit_zero (S := S1x512) hz]
  funext j
  obtain ⟨p, q, rfl⟩ : ∃ (p : Fin 512) (q : Fin 512), j = ix2 p q := ⟨j 0, j 1, eq_ix2 j⟩
  have hr : 512 * t.val + p.val < 8192 := by have := point_lt t; have := p.isLt; omega
  rw [View.read_apply, mean_emb t p q ⟨512 * t.val + p.val, hr⟩ rfl]
  refine (Cert.Mlp.Kern.mean_payload_apply (iblk m c 0 t) (iblk m c 1 t) (iblk m c 2 t) (iblk m c 3 t) (iblk m c 4 t) p q).trans ?_
  exact head_of_block (iblk m c 0 t) (iblk m c 1 t) (iblk m c 2 t) (iblk m c 3 t) (iblk m c 4 t)
    (samples m c) (muW1 m c) (muB1 m c) (muW2 m c) (muB2 m c) p q ⟨512 * t.val + p.val, hr⟩
    (fun k => samples_block m c t (ix2 p k) (ix2 ⟨512 * t.val + p.val, hr⟩ k) rfl rfl)
    (muW1_block m c t) (muB1_block m c t) (muW2_block m c t) (muB2_block m c t)

/-- What point `t` writes back into the second output is block `t` of the weight array. -/
theorem weight_flushed (c : Dev nD) (t : Fin cfg0.N) :
    (dats m 0 c).flushed 10 t = ((cfg0.win 10).blk t).view.read (Elt Ideal) (wgtArr m c) := by
  show (cfg0.win 10).cut (grid0.coords t) ((dats m 0 c).after 10 t) = _
  rw [after0_10]
  unfold out0_10
  rw [View.canon_unit_zero hz]
  simp only [View.ld_unit_zero (S := S512x512) hz, View.ld_unit_zero (S := S512x2048) hz, View.ld_unit_zero (S := S1x2048) hz,
    View.ld_unit_zero (S := S2048x512) hz, View.ld_unit_zero (S := S1x512) hz]
  funext j
  obtain ⟨p, q, rfl⟩ : ∃ (p : Fin 512) (q : Fin 512), j = ix2 p q := ⟨j 0, j 1, eq_ix2 j⟩
  have hr : 512 * t.val + p.val < 8192 := by have := point_lt t; have := p.isLt; omega
  rw [View.read_apply, weight_emb t p q ⟨512 * t.val + p.val, hr⟩ rfl]
  refine (Cert.Mlp.Kern.weight_payload_apply _ _ (ix2 p q)).trans ?_
  show _ = Ideal.ofBits .f32 0x3F000000#32 * Ideal.exp (-(Ideal.tanh (Cert.Mlp.head (samples m c) (lvW1 m c) (lvB1 m c) (lvW2 m c) (lvB2 m c) ⟨512 * t.val + p.val, hr⟩ q)))
  refine congrArg (fun z : EReal => Ideal.ofBits .f32 0x3F000000#32 * Ideal.exp (-(Ideal.tanh z))) ?_
  refine (congrArg₂ (fun a b : EReal => a + b)
    (Cert.Mlp.Kern.logvar_matmul_apply (iblk m c 0 t) (iblk m c 5 t) (iblk m c 6 t) (iblk m c 7 t) p q)
    (Cert.Mlp.Kern.logvar_bias_apply (iblk m c 8 t) p q)).trans ?_
  exact head_of_block (iblk m c 0 t) (iblk m c 5 t) (iblk m c 6 t) (iblk m c 7 t) (iblk m c 8 t)
    (samples m c) (lvW1 m c) (lvB1 m c) (lvW2 m c) (lvB2 m c) p q ⟨512 * t.val + p.val, hr⟩
    (fun k => samples_block m c t (ix2 p k) (ix2 ⟨512 * t.val + p.val, hr⟩ k) rfl rfl)
    (lvW1_block m c t) (lvB1_block m c t) (lvW2_block m c t) (lvB2_block m c t)

/-- Row `i₀` of an output array lies in the block of point `i₀ / 512`. -/
theorem mean_cover (c : Dev nD) (i : ((cfg0.win 9).arr.view.loc (c.tc : Thread nD τ)).2.ty.Idx) :
    ∃ t : Fin cfg0.N, (cfg0.win 9).flush t = true ∧ i ∈ ((cfg0.win 9).blk t).view.set := by
  have hi0 : (i 0).val < 8192 := (i 0).isLt
  have hi1 : (i 1).val < 512 := (i 1).isLt
  have hN : cfg0.N = 16 := N_0
  let t : Fin cfg0.N := ⟨(i 0).val / 512, by omega⟩
  obtain ⟨e0, e1⟩ := (block_indices t).2.2.2.2.2.2.2.2.2.1
  refine ⟨t, flush0_9 t, ?_⟩
  show i ∈ ((View.whole main_v9_0).slice (win0_9.rect t)).set
  rw [View.set_slice_whole, Rect.mem_set_unit]
  intro a
  match a with
  | ⟨0, _⟩ => show win0_9.index t (0 : Fin 2) * 512 ≤ (i 0).val ∧ (i 0).val < win0_9.index t (0 : Fin 2) * 512 + 512
              rw [e0]; show (i 0).val / 512 * 512 ≤ (i 0).val ∧ (i 0).val < (i 0).val / 512 * 512 + 512; omega
  | ⟨1, _⟩ => show win0_9.index t (1 : Fin 2) * 512 ≤ (i 1).val ∧ (i 1).val < win0_9.index t (1 : Fin 2) * 512 + 512
              rw [e1]; omega
theorem weight_cover (c : Dev nD) (i : ((cfg0.win 10).arr.view.loc (c.tc : Thread nD τ)).2.ty.Idx) :
    ∃ t : Fin cfg0.N, (cfg0.win 10).flush t = true ∧ i ∈ ((cfg0.win 10).blk t).view.set := by
  have hi0 : (i 0).val < 8192 := (i 0).isLt
  have hi1 : (i 1).val < 512 := (i 1).isLt
  have hN : cfg0.N = 16 := N_0
  let t : Fin cfg0.N := ⟨(i 0).val / 512, by omega⟩
  obtain ⟨e0, e1⟩ := (block_indices t).2.2.2.2.2.2.2.2.2.2
  refine ⟨t, flush0_10 t, ?_⟩
  show i ∈ ((View.whole main_v9_1).slice (win0_10.rect t)).set
  rw [View.set_slice_whole, Rect.mem_set_unit]
  intro a
  match a with
  | ⟨0, _⟩ => show win0_10.index t (0 : Fin 2) * 512 ≤ (i 0).val ∧ (i 0).val < win0_10.index t (0 : Fin 2) * 512 + 512
              rw [e0]; show (i 0).val / 512 * 512 ≤ (i 0).val ∧ (i 0).val < (i 0).val / 512 * 512 + 512; omega
  | ⟨1, _⟩ => show win0_10.index t (1 : Fin 2) * 512 ≤ (i 1).val ∧ (i 1).val < win0_10.index t (1 : Fin 2) * 512 + 512
              rw [e1]; omega

/-- After the region the first output array is the mean head. -/
theorem mean_final (c : Dev nD) : (dats m 0 c).arrAt 9 cfg0.N = meanArr m c :=
  (dats m 0 c).arrAt_eq_of_cover 9 (meanArr m c) (fun t _ => mean_flushed m c t) (mean_cover c)
/-- After the region the second output array is the weight array. -/
theorem weight_final (c : Dev nD) : (dats m 0 c).arrAt 10 cfg0.N = wgtArr m c :=
  (dats m 0 c).arrAt_eq_of_cover 10 (wgtArr m c) (fun t _ => weight_flushed m c t) (weight_cover c)

end Cert.Mlp.Arrays

end
-- ==== Proof.KernelTail.lean ====
/-
  The kernel's result: the loss of the two arrays its region leaves.

  After the region the program applies the loss's operations to the region's two output arrays and to the targets.
  The output arrays are the mean head and the weight array (the blocks tile them), the targets are as launched (no
  operation writes them), so the result is the loss of the specification's two arrays and the targets.
-/
import proofs.«131378_j9225589752112_1_alg».proof.Proof.Gen.KernelIdeal.Frame
import proofs.«131378_j9225589752112_1_alg».proof.Proof.LossTail
import proofs.«131378_j9225589752112_1_alg».proof.Proof.KernelArrays
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.Mlp.Tail

open Cert.KernelIdeal Cert.KernelIdeal.Gen Cert.Mlp.Arrays

variable (m : (ℓ : Loc nD τ sig) → Buf (Elt Ideal) ℓ)

/-- The region leaves the mean head in its first output array … -/
theorem left_mean (c : Dev nD) :
    Pipeline.withArrays (cfgs 0).spec c (V0 m c) (fun w => (dats m 0 c).arrAt w (cfgs 0).N) (Proc.devRef .tc main_v9_0) = meanArr m c :=
  (Pipeline.withArrays_arr spec0 launch0.win.arr_inj c _ _ 9).trans (mean_final m c)
/-- … the weight array in its second … -/
theorem left_weight (c : Dev nD) :
    Pipeline.withArrays (cfgs 0).spec c (V0 m c) (fun w => (dats m 0 c).arrAt w (cfgs 0).N) (Proc.devRef .tc main_v9_1) = wgtArr m c :=
  (Pipeline.withArrays_arr spec0 launch0.win.arr_inj c _ _ 10).trans (weight_final m c)
/-- … and the targets as launched. -/
theorem left_targets (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans (V_main_arg1 m c)

/-- The kernel's result buffer ends at the loss of the mean head, the weight array and the targets. -/
theorem kernel_result (c : Dev nD) :
    Pipeline.afterTail₀ cfgs (dats m) 0 (V0 m) [hostOps1] c main_v36
      = Cert.Mlp.Loss.loss (F := Ideal) (meanArr m c) (wgtArr m c) (m ((c : Thread nD τ).loc main_arg1)) := by
  unfold Pipeline.afterTail₀
  simp only [hostOps1, List.flatten_cons, List.flatten_nil, List.append_nil]
  after_results_simp
  rw [left_mean, left_weight, left_targets]
  rfl

end Cert.Mlp.Tail

end
-- ==== Proof.lean ====
/-
  The certificate: the kernel and its reference compute the same loss over the extended reals.

  Both programs send the samples through two two-layer perceptron heads — an affine map into 2048 hidden units,
  rectified, then an affine map into 512 outputs — and combine the first head `mu`, the array
  `w = ½ · exp (−tanh (second head))` and the targets `y` into one scalar loss by the same operations. The kernel
  computes the heads sixteen row blocks at a time, with the samples and weights first narrowed to a 16-bit format;
  on the extended reals a change of format is the identity, a matrix product at an entry is the finite sum over the
  contracted coordinate whatever the tiling of the rows, and zero minus `t` is `−t`. So both `mu`s are the
  specification's head array and both `w`s its weight array (Proof/Spec.lean), entry by entry, and the two results are
  the loss (Proof/LossTail.lean) of equal arguments. No finiteness of the inputs is used: no law beyond commutative
  monoid structure of the sums is needed. The frames of the two kernel programs are the generated ones; the
  reference's frame is its run with the result forgotten; no rewrite was applied by the idealization, so
  `preserves` states nothing.
-/
import proofs.«131378_j9225589752112_1_alg».proof.Defs
import proofs.«131378_j9225589752112_1_alg».proof.Proof.Gen.Kernel
import proofs.«131378_j9225589752112_1_alg».proof.Proof.Gen.Kernel.Skeleton
import proofs.«131378_j9225589752112_1_alg».proof.Proof.Gen.Kernel.Launch
import proofs.«131378_j9225589752112_1_alg».proof.Proof.Gen.Kernel.Points
import proofs.«131378_j9225589752112_1_alg».proof.Proof.Gen.Kernel.Frame
import proofs.«131378_j9225589752112_1_alg».proof.Proof.Gen.KernelIdeal
import proofs.«131378_j9225589752112_1_alg».proof.Proof.Gen.KernelIdeal.Skeleton
import proofs.«131378_j9225589752112_1_alg».proof.Proof.Gen.KernelIdeal.Launch
import proofs.«131378_j9225589752112_1_alg».proof.Proof.Gen.KernelIdeal.Points
import proofs.«131378_j9225589752112_1_alg».proof.Proof.Gen.KernelIdeal.Frame
import proofs.«131378_j9225589752112_1_alg».proof.Proof.Gen.ReferenceIdeal
import proofs.«131378_j9225589752112_1_alg».proof.Proof.Gen.ReferenceIdeal.Run
import proofs.«131378_j9225589752112_1_alg».proof.Proof.Gen.ReferenceIdeal.Read
import proofs.«131378_j9225589752112_1_alg».proof.Proof.Gen.Pre_finite_inputs
import proofs.«131378_j9225589752112_1_alg».proof.Proof.Spec
import proofs.«131378_j9225589752112_1_alg».proof.Proof.RefSide
import proofs.«131378_j9225589752112_1_alg».proof.Proof.LossTail
import proofs.«131378_j9225589752112_1_alg».proof.Proof.KernelPayload
import proofs.«131378_j9225589752112_1_alg».proof.Proof.KernelArrays
import proofs.«131378_j9225589752112_1_alg».proof.Proof.KernelTail
import Idealize.ShloMosaic.Adequacy
import Idealize.ShloMosaic.Init

set_option maxRecDepth 16384

noncomputable section

/-! ## The kernel's run, read: its result at the loss of the specification's arrays, its arguments unchanged -/

namespace Cert.Mlp.KernelRun

open Idealize.ShloMosaic Idealize.ShloMosaic.TcCoe Idealize.SL.Sem
open Cert.KernelIdeal Cert.KernelIdeal.Gen Cert.Mlp.Arrays

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36)
          = Cert.Mlp.Loss.loss (F := Ideal) (meanArr m c) (wgtArr m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v36 (Pipeline.mem_restRefs_of main_v36 (by decide) (by decide))).trans (Cert.Mlp.Tail.kernel_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main (F := Ideal) m ρ)

end Cert.Mlp.KernelRun

/-! ## The claims -/

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The kernel's result is the loss of the specification's two arrays at its own arguments; the reference's result
    is the loss of its own two arrays, which are the specification's at its arguments; the arguments agree. -/
theorem algebraic : Cert.algebraic_KernelIdeal_ReferenceIdeal := by
  intro m ρ m' ρ' _ hagree
  refine ⟨fun c => Cert.Mlp.Loss.loss (F := Ideal) (Cert.Mlp.Arrays.meanArr m c) (Cert.Mlp.Arrays.wgtArr m c)
    (m ((c.tc : Thread Cert.KernelIdeal.nD Cert.KernelIdeal.τ).loc Cert.KernelIdeal.main_arg1)), Cert.Mlp.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.Mlp.Loss.reference_result, Cert.Mlp.Ref.mean_head_eq, Cert.Mlp.Ref.weight_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
